-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x56x56 : Shape := ⟨4, ![32, 1024, 56, 56]⟩
abbrev S_ : Shape := ⟨0, ![]⟩

class Facts : Prop where
  bcast_S_S32x1024x56x56 : S_.BroadcastsInDim S32x1024x56x56 (![] : Fin 0 → Fin S32x1024x56x56.rank)
  reducesTo_S32x1024x56x56_S_d0_1_2_3 : S32x1024x56x56.ReducesTo [0, 1, 2, 3] S_
  h_S_ : 0 < S_.numel

variable [Facts]

def fn {F : FTy → Type} [FloatOps F] (main_arg0 : FVec F S32x1024x56x56 .f32) : IVec S_ 1 :=
  let main_v0 : FVec F S32x1024x56x56 .f32 := Host.absf main_arg0
  let main_cst : FVec F S_ .f32 := constant S_ .f32 0x7F800000#32
  let main_v1 : FVec F S32x1024x56x56 .f32 := broadcastInDim S32x1024x56x56 ![] bcast_S_S32x1024x56x56 main_cst
  let main_v2 : IVec S32x1024x56x56 1 := cmpf .olt main_v0 main_v1
  let main_c : IVec S_ 1 := constantI S_ 1 1#1
  let main_v3 : IVec S_ 1 := (fun x v => Host.reduce IntOp.andi x v reducesTo_S32x1024x56x56_S_d0_1_2_3 h_S_) main_v2 main_c
  main_v3
-- ==== Kernel.lean ====
abbrev S32x1024x56x56 : Shape := ⟨4, ![32, 1024, 56, 56]⟩
abbrev S32x256x56x56 : Shape := ⟨4, ![32, 256, 56, 56]⟩
abbrev S1x256x56x56 : Shape := ⟨4, ![1, 256, 56, 56]⟩

abbrev nBuf : Space → Nat
  | .hbm => 2
  | .vmem => 10
  | .smem => 0
  | _ => 0

abbrev bufTy : (tb : Table) → Fin (tcTables nBuf tb) → BufTy
  | .hbm, ⟨0, _⟩ => ⟨S32x1024x56x56, .f32⟩
  | .hbm, ⟨1, _⟩ => ⟨S32x256x56x56, .f32⟩
  | .local _ .vmem, ⟨0, _⟩ => ⟨S1x256x56x56, .f32⟩
  | .local _ .vmem, ⟨1, _⟩ => ⟨S1x256x56x56, .f32⟩
  | .local _ .vmem, ⟨2, _⟩ => ⟨S1x256x56x56, .f32⟩
  | .local _ .vmem, ⟨3, _⟩ => ⟨S1x256x56x56, .f32⟩
  | .local _ .vmem, ⟨4, _⟩ => ⟨S1x256x56x56, .f32⟩
  | .local _ .vmem, ⟨5, _⟩ => ⟨S1x256x56x56, .f32⟩
  | .local _ .vmem, ⟨6, _⟩ => ⟨S1x256x56x56, .f32⟩
  | .local _ .vmem, ⟨7, _⟩ => ⟨S1x256x56x56, .f32⟩
  | .local _ .vmem, ⟨8, _⟩ => ⟨S1x256x56x56, .f32⟩
  | .local _ .vmem, ⟨9, _⟩ => ⟨S1x256x56x56, .f32⟩
  | _, _ => ⟨S32x1024x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x56x56 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x256x56x56_S1x256x56x56_0_0_0_0 : ∀ a, (![0, 0, 0, 0] : Fin 4 → Nat) a + S1x256x56x56.size a ≤ S1x256x56x56.size a
  h_S1x256x56x56 : 0 < S1x256x56x56.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x56x56.size a ≤ S32x1024x56x56.size a
  hwx0_0 : ∀ i : grid0.Coords, EltTy.bits .f32 = 32 ∨ (Rect.block (s := S32x1024x56x56) S1x256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x56x56.size a ≤ S32x1024x56x56.size a
  hwx0_1 : ∀ i : grid0.Coords, EltTy.bits .f32 = 32 ∨ (Rect.block (s := S32x1024x56x56) S1x256x56x56.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x56x56.size a ≤ S32x1024x56x56.size a
  hwx0_2 : ∀ i : grid0.Coords, EltTy.bits .f32 = 32 ∨ (Rect.block (s := S32x1024x56x56) S1x256x56x56.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x56x56.size a ≤ S32x1024x56x56.size a
  hwx0_3 : ∀ i : grid0.Coords, EltTy.bits .f32 = 32 ∨ (Rect.block (s := S32x1024x56x56) S1x256x56x56.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x56x56.size a ≤ S32x256x56x56.size a
  hwx0_4 : ∀ i : grid0.Coords, EltTy.bits .f32 = 32 ∨ (Rect.block (s := S32x256x56x56) S1x256x56x56.size (cc0_transform_4 i) (hinb0_4 i)).WholeWords (EltTy.packing .f32)

variable [Facts₀]

abbrev win0_0 : Pipeline.Window sig grid0 :=
  Pipeline.Window.ofSpec (Memref.whole main_arg0) S1x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x56x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x256x56x56.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x256x56x56.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x56x56.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x56x56 : Shape := ⟨4, ![32, 1024, 56, 56]⟩
abbrev S32x4x256x56x56 : Shape := ⟨5, ![32, 4, 256, 56, 56]⟩
abbrev S_ : Shape := ⟨0, ![]⟩
abbrev S32x256x56x56 : Shape := ⟨4, ![32, 256, 56, 56]⟩

abbrev nBuf : Space → Nat
  | .hbm => 4
  | .vmem => 0
  | .smem => 0
  | _ => 0

abbrev bufTy : (tb : Table) → Fin (tcTables nBuf tb) → BufTy
  | .hbm, ⟨0, _⟩ => ⟨S32x1024x56x56, .f32⟩
  | .hbm, ⟨1, _⟩ => ⟨S32x4x256x56x56, .f32⟩
  | .hbm, ⟨2, _⟩ => ⟨S_, .f32⟩
  | .hbm, ⟨3, _⟩ => ⟨S32x256x56x56, .f32⟩
  | _, _ => ⟨S32x1024x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S32x1024x56x56_S32x4x256x56x56 : S32x1024x56x56.ShapeCasts S32x4x256x56x56
  reducesTo_S32x4x256x56x56_S32x256x56x56_d1 : S32x4x256x56x56.ReducesTo [1] S32x256x56x56
  h_S_ : 0 < S_.numel

variable [Facts₀]

class Facts : Prop extends Facts₀ where

variable [Facts]
-- ==== Proof.BitsPoint.lean ====
import proofs.«165867_j7370163880483_1_alg».proof.Proof.Gen.Kernel.Launch
import proofs.«165867_j7370163880483_1_alg».proof.Proof.Gen.Kernel.Skeleton
import proofs.«165867_j7370163880483_1_alg».proof.Proof.Gen.Kernel.Points
import Idealize.ShloMosaic.Lib.Pipeline.FrameBody
import Idealize.ShloMosaic.Lib.Ring
import Idealize.ShloMosaic.Lib.Tactic

/-!
# One grid point of the four-way channel-group maximum

At grid point t (one batch index) the body is handed four staging buffers, each holding one
1×256×56×56 block of the same input array (the blocks at channel-group offsets 0, 1, 2, 3 of
batch t) and one staging buffer for the output block. It loads the four blocks whole, takes
max (max x₀ x₁) (max x₂ x₃) elementwise, and stores the result over the whole output block.

This module states what the output buffer holds afterwards (groupMax: the one whole-block store,
read back) and proves the body's triple.
-/

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body stores -/

/-- The whole block, as a rectangle of itself. -/
abbrev wholeBlock : Rect S1x256x56x56 := Rect.unit (s := S1x256x56x56) ![0, 0, 0, 0] S1x256x56x56.size inb_S1x256x56x56_S1x256x56x56_0_0_0_0

/-- The output buffer after the body, from the four input blocks: its one store, of the nested
    maximum of the four blocks loaded whole. -/
def groupMax (x0 x1 x2 x3 : Vec F S1x256x56x56 .f32) : Vec F S1x256x56x56 .f32 :=
  View.canon [⟨wholeBlock, k0_pay1 (View.ld x0 wholeBlock) (View.ld x1 wholeBlock) (View.ld x2 wholeBlock) (View.ld x3 wholeBlock)⟩]

/-- The one store covers the buffer. -/
theorem groupMax_cover (p0 : Vec F S1x256x56x56 .f32) (y : S1x256x56x56.Idx) :
    ∃ pc ∈ ([⟨wholeBlock, p0⟩] : List (View.Piece (Elt F) S1x256x56x56 .f32)), y ∈ pc.1.set :=
  View.cover_of_tiled [⟨wholeBlock, p0⟩] S1x256x56x56.size (by rfl) y

/-! ## The body's triple -/

set_option maxHeartbeats 1000000 in
/-- On whole staging memrefs, the four inputs' at contents x₀ … x₃ and the output's at anything,
    the body runs to the continuation with the inputs as they were and the output at groupMax. -/
theorem sound_kernel (c : Dev nD) (E : Set ℕ) (i : grid0.Coords)
    (arg1 : Memref sig .tc .vmem S1x256x56x56 .f32) (harg1 : arg1.IsWhole) (arg2 : Memref sig .tc .vmem S1x256x56x56 .f32) (harg2 : arg2.IsWhole)
    (arg3 : Memref sig .tc .vmem S1x256x56x56 .f32) (harg3 : arg3.IsWhole) (arg4 : Memref sig .tc .vmem S1x256x56x56 .f32) (harg4 : arg4.IsWhole)
    (arg5 : Memref sig .tc .vmem S1x256x56x56 .f32) (harg5 : arg5.IsWhole)
    (x0 x1 x2 x3 : Vec F S1x256x56x56 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (groupMax x0 x1 x2 x3)) -∗ K ⟨⟩))
      ⊢ wp frame (wpE (defs₀ (F := F)) Variants.none c none) E (cc0__gmaxpool_kernel i arg1 harg1 arg2 harg2 arg3 harg3 arg4 harg4 arg5 harg5) K := by
  simp only [cc0__gmaxpool_kernel_eq_skeleton]; unfold cc0__gmaxpool_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (groupMax_cover _)

end Cert.Kernel.Pool

end
-- ==== Proof.BitsData.lean ====
import proofs.«165867_j7370163880483_1_alg».proof.Proof.BitsPoint

/-!
# The proof data of the pipelined region, and its obligation at every grid point

The region is the whole program, so on entry every array holds what it was launched with.
The four input windows read one and the same array; each is given a quarter of that array's
full share, and each leaves the block it was handed in place. The output window's buffer ends
each point at the maximum of the four input blocks of that point. Nothing is carried between
points beyond the staging buffers, so the invariant between points is just the scoped buffers
the pipeline does not stage.
-/

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The program is the one region: on entry every buffer holds what it was launched with. -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window w's block at point t, read off its array at entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds that block whenever the body is
    handed it, fetched at that point or not (one statement per window: the four read the same array
    at different channel-group offsets). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays at entry; after the body at point t each input's buffer at its block and the output's
    at the maximum of the four input blocks; between points only the unstaged scoped buffers; the one
    input array's full share dealt in quarters to the four windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => groupMax (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = groupMax (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The obligation at a point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.Kernel.Pool

end
-- ==== Proof.BitsRun.lean ====
import proofs.«165867_j7370163880483_1_alg».proof.Proof.BitsData
import Idealize.ShloMosaic.Lib.Pipeline.Frame

/-!
# The run of the program: one region whose four input windows share one array

The pipeline rule wants each window's array at that window's share. The program has two arrays:
the input, read by four windows, and the output, written by one. At entry the input array is held
whole; its full share is halved, and each half halved again, giving the four windows a quarter
each. The output array goes to its window at the full share. With that dealing the launch rule
for regions whose windows may share arrays applies, and at the end every window's array holds
what the pipeline rule computes from the proof data: the input array what it held at entry (an
input window never writes), the output array its entry contents overwritten block by block.
-/

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two arrays behind the five windows. -/
theorem arr_image : Finset.univ.image (Pipeline.arrRef spec0) = [main_arg0, main_v0].toFinset := by decide

/-- Held whole at entry: the input array and the output array. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  exact bigSep_eq_bigSepL_of_eq [main_arg0, main_v0] arr_image (by decide) _

/-- Between points the invariant is the unstaged scoped buffers, at every point. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- Every window's array is a whole buffer, so the windows' holdings are plain points-tos at their shares. -/
theorem arrays_at (c : Dev nD) (G : (w : Fin cfg0.W) → Buf (Elt F) ((cfg0.win w).arr.view.loc (c.tc : Thread nD τ))) :
    (dats m 0 c).arrays G
      = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

/-- The arrays, held whole at entry, dealt to the windows: the input's full share in quarters to
    the four windows that read it, the output's whole to the window that writes it. -/
theorem arrays_deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_at, bigSep_W0]
  iintro ⟨Hx, Ho⟩
  ihave H := (pointsTo_share (PosShare.mem_left_op_right fullShare)).1 $$ Hx
  icases H with ⟨HL, HR⟩
  ihave HL' := (pointsTo_share (PosShare.mem_left_op_right fullShare.left)).1 $$ HL
  icases HL' with ⟨H0, H1⟩
  ihave HR' := (pointsTo_share (PosShare.mem_left_op_right fullShare.right)).1 $$ HR
  icases HR' with ⟨H2, H3⟩
  isplitl [H0]; · iexact H0
  isplitl [H1]; · iexact H1
  isplitl [H2]; · iexact H2
  isplitl [H3]; · iexact H3
  iexact Ho

set_option backward.isDefEq.respectTransparency.types false in
/-- Every weakly fair execution of the program terminates, and in every final state each window's
    array holds what the pipeline rule computes from the proof data. -/
theorem run_main : θ_run defs (onTc (τ := τ) (main (F := F))) (s₀ m ρ)
    (fun r => ∀ c : Dev nD, ∀ w, r.2.mem (((cfgs 0).spec w).arr.view.loc (c.tc : Thread nD τ)) = (dats m 0 c).arrAt w (cfgs 0).N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := Rounds.initOf (Pipeline.cells cfgs cellOf_inj) (Pipeline.launchToks cfgs cellOf_inj))
    (hu₀ := .rfl)
    (V := V m) (hmain := hmain m Variants.none)
    (hsplit := arrays_deal m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by rw [Φ_eq]; iintro ⟨-, H⟩; iexact H)
    (hout := fun c => by
      rw [Φ_eq]; iintro H; isplitr; · iempintro
      iexact H)
    (QY := fun _ _ => True)
    (hY := fun c s' => by
      iintro ⟨-, -, HSI⟩; imodintro; isplitr; · ipureintro; trivial
      iexact HSI)
    (hQ := fun s h c w => (h c).1 w)

/-- An input window never writes its array: the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c 0).trans (((dats m 0 c).arrAt_in 0 rfl _).trans (A_eq m c 0))) (run_main m ρ)

end Cert.Kernel.Pool

end
-- ==== Proof.IdealPoint.lean ====
import proofs.«165867_j7370163880483_1_alg».proof.Proof.Gen.KernelIdeal.Launch
import proofs.«165867_j7370163880483_1_alg».proof.Proof.Gen.KernelIdeal.Skeleton
import proofs.«165867_j7370163880483_1_alg».proof.Proof.Gen.KernelIdeal.Points
import Idealize.ShloMosaic.Lib.Pipeline.FrameBody
import Idealize.ShloMosaic.Lib.Ring
import Idealize.ShloMosaic.Lib.Tactic

/-!
# One grid point of the four-way channel-group maximum

At grid point t (one batch index) the body is handed four staging buffers, each holding one
1×256×56×56 block of the same input array (the blocks at channel-group offsets 0, 1, 2, 3 of
batch t) and one staging buffer for the output block. It loads the four blocks whole, takes
max (max x₀ x₁) (max x₂ x₃) elementwise, and stores the result over the whole output block.

This module states what the output buffer holds afterwards (groupMax: the one whole-block store,
read back) and proves the body's triple.
-/

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body stores -/

/-- The whole block, as a rectangle of itself. -/
abbrev wholeBlock : Rect S1x256x56x56 := Rect.unit (s := S1x256x56x56) ![0, 0, 0, 0] S1x256x56x56.size inb_S1x256x56x56_S1x256x56x56_0_0_0_0

/-- The output buffer after the body, from the four input blocks: its one store, of the nested
    maximum of the four blocks loaded whole. -/
def groupMax (x0 x1 x2 x3 : Vec F S1x256x56x56 .f32) : Vec F S1x256x56x56 .f32 :=
  View.canon [⟨wholeBlock, k0_pay1 (View.ld x0 wholeBlock) (View.ld x1 wholeBlock) (View.ld x2 wholeBlock) (View.ld x3 wholeBlock)⟩]

/-- The one store covers the buffer. -/
theorem groupMax_cover (p0 : Vec F S1x256x56x56 .f32) (y : S1x256x56x56.Idx) :
    ∃ pc ∈ ([⟨wholeBlock, p0⟩] : List (View.Piece (Elt F) S1x256x56x56 .f32)), y ∈ pc.1.set :=
  View.cover_of_tiled [⟨wholeBlock, p0⟩] S1x256x56x56.size (by rfl) y

/-! ## The body's triple -/

set_option maxHeartbeats 1000000 in
/-- On whole staging memrefs, the four inputs' at contents x₀ … x₃ and the output's at anything,
    the body runs to the continuation with the inputs as they were and the output at groupMax. -/
theorem sound_kernel (c : Dev nD) (E : Set ℕ) (i : grid0.Coords)
    (arg1 : Memref sig .tc .vmem S1x256x56x56 .f32) (harg1 : arg1.IsWhole) (arg2 : Memref sig .tc .vmem S1x256x56x56 .f32) (harg2 : arg2.IsWhole)
    (arg3 : Memref sig .tc .vmem S1x256x56x56 .f32) (harg3 : arg3.IsWhole) (arg4 : Memref sig .tc .vmem S1x256x56x56 .f32) (harg4 : arg4.IsWhole)
    (arg5 : Memref sig .tc .vmem S1x256x56x56 .f32) (harg5 : arg5.IsWhole)
    (x0 x1 x2 x3 : Vec F S1x256x56x56 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (groupMax x0 x1 x2 x3)) -∗ K ⟨⟩))
      ⊢ wp frame (wpE (defs₀ (F := F)) Variants.none c none) E (cc0__gmaxpool_kernel i arg1 harg1 arg2 harg2 arg3 harg3 arg4 harg4 arg5 harg5) K := by
  simp only [cc0__gmaxpool_kernel_eq_skeleton]; unfold cc0__gmaxpool_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (groupMax_cover _)

end Cert.KernelIdeal.Pool

end
-- ==== Proof.IdealData.lean ====
import proofs.«165867_j7370163880483_1_alg».proof.Proof.IdealPoint

/-!
# The proof data of the pipelined region, and its obligation at every grid point

The region is the whole program, so on entry every array holds what it was launched with.
The four input windows read one and the same array; each is given a quarter of that array's
full share, and each leaves the block it was handed in place. The output window's buffer ends
each point at the maximum of the four input blocks of that point. Nothing is carried between
points beyond the staging buffers, so the invariant between points is just the scoped buffers
the pipeline does not stage.
-/

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The program is the one region: on entry every buffer holds what it was launched with. -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window w's block at point t, read off its array at entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds that block whenever the body is
    handed it, fetched at that point or not (one statement per window: the four read the same array
    at different channel-group offsets). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays at entry; after the body at point t each input's buffer at its block and the output's
    at the maximum of the four input blocks; between points only the unstaged scoped buffers; the one
    input array's full share dealt in quarters to the four windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => groupMax (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = groupMax (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The obligation at a point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Pool

end
-- ==== Proof.IdealRun.lean ====
import proofs.«165867_j7370163880483_1_alg».proof.Proof.IdealData
import Idealize.ShloMosaic.Lib.Pipeline.Frame

/-!
# The run of the program: one region whose four input windows share one array

The pipeline rule wants each window's array at that window's share. The program has two arrays:
the input, read by four windows, and the output, written by one. At entry the input array is held
whole; its full share is halved, and each half halved again, giving the four windows a quarter
each. The output array goes to its window at the full share. With that dealing the launch rule
for regions whose windows may share arrays applies, and at the end every window's array holds
what the pipeline rule computes from the proof data: the input array what it held at entry (an
input window never writes), the output array its entry contents overwritten block by block.
-/

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two arrays behind the five windows. -/
theorem arr_image : Finset.univ.image (Pipeline.arrRef spec0) = [main_arg0, main_v0].toFinset := by decide

/-- Held whole at entry: the input array and the output array. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  exact bigSep_eq_bigSepL_of_eq [main_arg0, main_v0] arr_image (by decide) _

/-- Between points the invariant is the unstaged scoped buffers, at every point. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- Every window's array is a whole buffer, so the windows' holdings are plain points-tos at their shares. -/
theorem arrays_at (c : Dev nD) (G : (w : Fin cfg0.W) → Buf (Elt F) ((cfg0.win w).arr.view.loc (c.tc : Thread nD τ))) :
    (dats m 0 c).arrays G
      = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

/-- The arrays, held whole at entry, dealt to the windows: the input's full share in quarters to
    the four windows that read it, the output's whole to the window that writes it. -/
theorem arrays_deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_at, bigSep_W0]
  iintro ⟨Hx, Ho⟩
  ihave H := (pointsTo_share (PosShare.mem_left_op_right fullShare)).1 $$ Hx
  icases H with ⟨HL, HR⟩
  ihave HL' := (pointsTo_share (PosShare.mem_left_op_right fullShare.left)).1 $$ HL
  icases HL' with ⟨H0, H1⟩
  ihave HR' := (pointsTo_share (PosShare.mem_left_op_right fullShare.right)).1 $$ HR
  icases HR' with ⟨H2, H3⟩
  isplitl [H0]; · iexact H0
  isplitl [H1]; · iexact H1
  isplitl [H2]; · iexact H2
  isplitl [H3]; · iexact H3
  iexact Ho

set_option backward.isDefEq.respectTransparency.types false in
/-- Every weakly fair execution of the program terminates, and in every final state each window's
    array holds what the pipeline rule computes from the proof data. -/
theorem run_main : θ_run defs (onTc (τ := τ) (main (F := F))) (s₀ m ρ)
    (fun r => ∀ c : Dev nD, ∀ w, r.2.mem (((cfgs 0).spec w).arr.view.loc (c.tc : Thread nD τ)) = (dats m 0 c).arrAt w (cfgs 0).N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := Rounds.initOf (Pipeline.cells cfgs cellOf_inj) (Pipeline.launchToks cfgs cellOf_inj))
    (hu₀ := .rfl)
    (V := V m) (hmain := hmain m Variants.none)
    (hsplit := arrays_deal m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by rw [Φ_eq]; iintro ⟨-, H⟩; iexact H)
    (hout := fun c => by
      rw [Φ_eq]; iintro H; isplitr; · iempintro
      iexact H)
    (QY := fun _ _ => True)
    (hY := fun c s' => by
      iintro ⟨-, -, HSI⟩; imodintro; isplitr; · ipureintro; trivial
      iexact HSI)
    (hQ := fun s h c w => (h c).1 w)

/-- An input window never writes its array: the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c 0).trans (((dats m 0 c).arrAt_in 0 rfl _).trans (A_eq m c 0))) (run_main m ρ)

end Cert.KernelIdeal.Pool

end
-- ==== Proof.GroupMax.lean ====
import Idealize.ShloMosaic.PureOps.Ideal
import Idealize.ShloMosaic.Lib.ValueIdx

/-!
# The four-way channel-group maximum, as one function of the input array

The input has 1024 channels, read as four consecutive groups of 256. Output channel j of
batch b at position (h, w) is the maximum, over the four groups k, of the input at channel
k * 256 + j, same batch and position. On the extended reals the maximum is a lattice
operation, so the value does not depend on how the four terms are bracketed or on a fold's
starting value of minus infinity.
-/

noncomputable section

namespace Cert.GroupMax

open Idealize.ShloMosaic Idealize.ShloMosaic.ValueIdx

/-- Channel j of group k among the 1024 input channels. -/
def chan (k : Fin 4) (j : Fin 256) : Fin 1024 :=
  ⟨k.val * 256 + j.val, by have hk := k.isLt; have hj := j.isLt; omega⟩

/-- The input index group k contributes to output index (b, j, h, w). -/
def src (k : Fin 4) (b : Fin 32) (j : Fin 256) (h w : Fin 56) : (⟨4, ![32, 1024, 56, 56]⟩ : Shape).Idx :=
  ix4 b (chan k j) h w

/-- The result: at every output index the maximum of the four groups' entries. -/
def pooled (x : FVec Ideal ⟨4, ![32, 1024, 56, 56]⟩ .f32) : FVec Ideal ⟨4, ![32, 256, 56, 56]⟩ .f32 :=
  fun i => max (max (x (src 0 (i 0) (i 1) (i 2) (i 3))) (x (src 1 (i 0) (i 1) (i 2) (i 3))))
    (max (x (src 2 (i 0) (i 1) (i 2) (i 3))) (x (src 3 (i 0) (i 1) (i 2) (i 3))))

/-- Minus infinity is below every extended real. -/
theorem negInf_le (y : Ideal .f32) : Ideal.ofBits .f32 0xFF800000#32 ≤ y := by
  have h : max (Ideal.ofBits .f32 0xFF800000#32) y = y := by simp [Ideal.ofBits, Ideal.ieee]
  exact max_eq_right_iff.mp h

/-- A fold of the maximum over four terms from minus infinity is their maximum, however bracketed:
    each side is the least upper bound of the four. -/
theorem fold_max_four (f : Fin 4 → Ideal .f32) :
    (Finset.univ : Finset (Fin 4)).fold max (Ideal.ofBits .f32 0xFF800000#32) f
      = max (max (f 0) (f 1)) (max (f 2) (f 3)) := by
  apply le_antisymm
  · refine (Finset.fold_max_le _).mpr ⟨negInf_le _, fun k _ => ?_⟩
    fin_cases k
    · exact le_max_of_le_left (le_max_left _ _)
    · exact le_max_of_le_left (le_max_right _ _)
    · exact le_max_of_le_right (le_max_left _ _)
    · exact le_max_of_le_right (le_max_right _ _)
  · have h : ∀ k : Fin 4, f k ≤ (Finset.univ : Finset (Fin 4)).fold max (Ideal.ofBits .f32 0xFF800000#32) f :=
      fun k => (Finset.le_fold_max _).mpr (Or.inr ⟨k, Finset.mem_univ _, le_rfl⟩)
    exact max_le (max_le (h 0) (h 1)) (max_le (h 2) (h 3))

end Cert.GroupMax

end
-- ==== Proof.IdealValue.lean ====
import proofs.«165867_j7370163880483_1_alg».proof.Proof.IdealRun
import proofs.«165867_j7370163880483_1_alg».proof.Proof.GroupMax
import Idealize.ShloMosaic.Lib.Pipeline.Value
import Idealize.ShloMosaic.Lib.ValueIdx

/-!
# What the output array holds after the run, on the extended reals

Grid point t handles batch t. The four input windows sit at channel-group offsets 0, 1, 2, 3 of
that batch (block index (t, k, 0, 0) with blocks of 1×256×56×56), the output window at block
(t, 0, 0, 0). So element (0, j, h, w) of the k-th input block is the input at
(t, k * 256 + j, h, w), and the same element of the output block is the output at (t, j, h, w):
the block point t writes back is block t of the specification's array. The 32 output blocks tile
the output array, so after the run the whole output array is the specification's function of the
input array.
-/

set_option maxRecDepth 16384

noncomputable section

namespace Cert.KernelIdeal.Pool

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.GroupMax

variable (m : (ℓ : Loc nD τ sig) → Buf (Elt Ideal) ℓ) (ρ : Dev nD → PrngReg)

/-- The input array as launched, as a function on its indices. -/
abbrev xin (c : Dev nD) : FVec Ideal S32x1024x56x56 .f32 := V m c main_arg0

theorem offsets_zero : (![0, 0, 0, 0] : Fin 4 → Nat) = fun _ => 0 := funext fun a => by fin_cases a <;> rfl

/-- The body's arithmetic: the bracketed maximum of its four loaded blocks. -/
theorem pay_eq (x0 x1 x2 x3 : Vec Ideal S1x256x56x56 .f32) :
    k0_pay1 x0 x1 x2 x3 = maximumf (maximumf x0 x1) (maximumf x2 x3) := rfl

/-- The block index maps over the 32 grid points: batch t, channel group k for input window k,
    group 0 for the output, and the two spatial axes whole. -/
theorem index_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 1 ∧ win0_1.index t (2 : Fin 4) = 0 ∧ win0_1.index t (3 : Fin 4) = 0)
    ∧ (win0_2.index t (0 : Fin 4) = t.val ∧ win0_2.index t (1 : Fin 4) = 2 ∧ win0_2.index t (2 : Fin 4) = 0 ∧ win0_2.index t (3 : Fin 4) = 0)
    ∧ (win0_3.index t (0 : Fin 4) = t.val ∧ win0_3.index t (1 : Fin 4) = 3 ∧ win0_3.index t (2 : Fin 4) = 0 ∧ win0_3.index t (3 : Fin 4) = 0)
    ∧ (win0_4.index t (0 : Fin 4) = t.val ∧ win0_4.index t (1 : Fin 4) = 0 ∧ win0_4.index t (2 : Fin 4) = 0 ∧ win0_4.index t (3 : Fin 4) = 0) :=
  (by decide +kernel : ∀ t : Fin grid0.N, _)

/-- Where element j of the output block of point t sits in the output array. -/
theorem out_emb (t : Fin cfg0.N) (j : S1x256x56x56.Idx) (a : Fin 4) :
    (((cfg0.win 4).blk t).view.emb j a).val = win0_4.index t a * S1x256x56x56.size a + 1 * (j a).val := rfl

/-- Element j of input window k's block at point t is the input at the index the specification
    reads for group k at the output index under element j of the output block. -/
theorem in_emb (t : Fin cfg0.N) (j : S1x256x56x56.Idx) (k : Fin 4) (ix : Fin 4 → Nat)
    (e : S32x1024x56x56.Idx) (he : ∀ a : Fin 4, (e a).val = ix a * S1x256x56x56.size a + 1 * (j a).val)
    (h0 : ix 0 = t.val) (h1 : ix 1 = k.val) (h2 : ix 2 = 0) (h3 : ix 3 = 0) :
    e = src k (((cfg0.win 4).blk t).view.emb j 0) (((cfg0.win 4).blk t).view.emb j 1) (((cfg0.win 4).blk t).view.emb j 2) (((cfg0.win 4).blk t).view.emb j 3) := by
  obtain ⟨-, -, -, -, o0, o1, o2, o3⟩ := index_facts t
  have hj0 : (j 0).val < 1 := (j 0).isLt
  have hj1 : (j 1).val < 256 := (j 1).isLt
  funext a; apply Fin.ext
  match a with
  | ⟨0, _⟩ =>
    show (e 0).val = (((cfg0.win 4).blk t).view.emb j 0).val
    rw [he 0, out_emb, h0, o0]
  | ⟨1, _⟩ =>
    show (e 1).val = k.val * 256 + (((cfg0.win 4).blk t).view.emb j 1).val
    rw [he 1, out_emb, h1, o1]; show k.val * 256 + 1 * (j 1).val = k.val * 256 + (0 * 256 + 1 * (j 1).val); omega
  | ⟨2, _⟩ =>
    show (e 2).val = (((cfg0.win 4).blk t).view.emb j 2).val
    rw [he 2, out_emb, h2, o2]
  | ⟨3, _⟩ =>
    show (e 3).val = (((cfg0.win 4).blk t).view.emb j 3).val
    rw [he 3, out_emb, h3, o3]

/-- What point t writes back is block t of the specification's array of the input as launched. -/
theorem flushed_eq (c : Dev nD) (t : Fin cfg0.N) :
    (dats m 0 c).flushed 4 t = ((cfg0.win 4).blk t).view.read (Elt Ideal) (pooled (xin m c)) := by
  show (cfg0.win 4).cut (grid0.coords t) ((dats m 0 c).after 4 t) = _
  rw [after4]
  unfold groupMax
  rw [View.canon_unit_zero offsets_zero]
  simp only [View.ld_unit_zero (S := S1x256x56x56) offsets_zero]
  rw [pay_eq]
  obtain ⟨⟨a0, a1, a2, a3⟩, ⟨b0, b1, b2, b3⟩, ⟨c0, c1, c2, c3⟩, ⟨d0, d1, d2, d3⟩, -⟩ := index_facts t
  funext j
  show max (max (xin m c (((cfg0.win 0).blk t).view.emb j)) (xin m c (((cfg0.win 1).blk t).view.emb j)))
      (max (xin m c (((cfg0.win 2).blk t).view.emb j)) (xin m c (((cfg0.win 3).blk t).view.emb j)))
    = pooled (xin m c) (((cfg0.win 4).blk t).view.emb j)
  unfold pooled
  rw [in_emb t j 0 (win0_0.index t) (((cfg0.win 0).blk t).view.emb j) (fun _ => rfl) a0 a1 a2 a3,
    in_emb t j 1 (win0_1.index t) (((cfg0.win 1).blk t).view.emb j) (fun _ => rfl) b0 b1 b2 b3,
    in_emb t j 2 (win0_2.index t) (((cfg0.win 2).blk t).view.emb j) (fun _ => rfl) c0 c1 c2 c3,
    in_emb t j 3 (win0_3.index t) (((cfg0.win 3).blk t).view.emb j) (fun _ => rfl) d0 d1 d2 d3]

/-- An index of the output array is in point t's block iff each coordinate is in the block's range. -/
theorem mem_out_blk (t : Fin cfg0.N) (i : S32x256x56x56.Idx) :
    i ∈ ((cfg0.win 4).blk t).view.set ↔ ∀ a : Fin 4, win0_4.index t a * S1x256x56x56.size a ≤ (i a).val ∧ (i a).val < win0_4.index t a * S1x256x56x56.size a + S1x256x56x56.size a := by
  show i ∈ ((View.whole main_v0).slice (win0_4.rect t)).set ↔ _
  rw [View.set_slice_whole, Rect.mem_set_unit]
  exact Iff.rfl

/-- The 32 output blocks tile the output array: index (b, j, h, w) is in the block of point b. -/
theorem out_cover (i : S32x256x56x56.Idx) :
    ∃ t : Fin cfg0.N, (cfg0.win 4).flush t = true ∧ i ∈ ((cfg0.win 4).blk t).view.set := by
  have hi0 : (i 0).val < 32 := (i 0).isLt
  have hi1 : (i 1).val < 256 := (i 1).isLt
  have hi2 : (i 2).val < 56 := (i 2).isLt
  have hi3 : (i 3).val < 56 := (i 3).isLt
  have hN : (i 0).val < cfg0.N := by rw [show cfg0.N = 32 from N_0]; exact hi0
  obtain ⟨-, -, -, -, o0, o1, o2, o3⟩ := index_facts ⟨(i 0).val, hN⟩
  have o0' : win0_4.index ⟨(i 0).val, hN⟩ (0 : Fin 4) = (i 0).val := o0
  refine ⟨⟨(i 0).val, hN⟩, flush0_4 _, ?_⟩
  rw [mem_out_blk]
  intro a
  match a with
  | ⟨0, _⟩ =>
    show win0_4.index ⟨(i 0).val, hN⟩ (0 : Fin 4) * 1 ≤ (i 0).val ∧ (i 0).val < win0_4.index ⟨(i 0).val, hN⟩ (0 : Fin 4) * 1 + 1
    rw [o0']; omega
  | ⟨1, _⟩ =>
    show win0_4.index ⟨(i 0).val, hN⟩ (1 : Fin 4) * 256 ≤ (i 1).val ∧ (i 1).val < win0_4.index ⟨(i 0).val, hN⟩ (1 : Fin 4) * 256 + 256
    rw [o1]; omega
  | ⟨2, _⟩ =>
    show win0_4.index ⟨(i 0).val, hN⟩ (2 : Fin 4) * 56 ≤ (i 2).val ∧ (i 2).val < win0_4.index ⟨(i 0).val, hN⟩ (2 : Fin 4) * 56 + 56
    rw [o2]; omega
  | ⟨3, _⟩ =>
    show win0_4.index ⟨(i 0).val, hN⟩ (3 : Fin 4) * 56 ≤ (i 3).val ∧ (i 3).val < win0_4.index ⟨(i 0).val, hN⟩ (3 : Fin 4) * 56 + 56
    rw [o3]; omega

/-- After the run the output array is the specification's function of the input as launched. -/
theorem final (c : Dev nD) : (dats m 0 c).arrAt 4 cfg0.N = pooled (xin m c) :=
  (dats m 0 c).arrAt_eq_of_cover 4 _ (fun t _ => flushed_eq m c t) out_cover

/-- Every weakly fair execution terminates with the output array at the specification's function of
    the input and the input unchanged. -/
theorem run : θ_run defs (onTc (τ := τ) (main (F := Ideal))) ⟨m, fun _ => 0, ρ⟩ fun r => ∀ c : Dev nD,
      r.2.mem ((c.tc : Thread nD τ).loc main_v0) = pooled (m ((c.tc : Thread nD τ).loc main_arg0))
      ∧ r.2.mem ((c.tc : Thread nD τ).loc main_arg0) = m ((c.tc : Thread nD τ).loc main_arg0) :=
  (θ_run defs _ _).mono (fun r h c => ⟨(h c 4).trans (final m c),
      (h c 0).trans (((dats m 0 c).arrAt_in 0 rfl _).trans (A_eq m c 0))⟩)
    (run_main m ρ)

end Cert.KernelIdeal.Pool

end
-- ==== Proof.RefMax.lean ====
import proofs.«165867_j7370163880483_1_alg».proof.Proof.Gen.ReferenceIdeal.Read
import proofs.«165867_j7370163880483_1_alg».proof.Proof.GroupMax
import Idealize.ShloMosaic.PureOps.Reduce
import Idealize.ShloMosaic.PureOps.Ideal.Laws

/-!
# The reference computes the four-way channel-group maximum

The reference views the 1024 channels as 4 groups of 256 (a reshape, which in row-major order
sends (b, k, j, h, w) to (b, k * 256 + j, h, w)) and reduces the group axis with the maximum,
starting from minus infinity. At an output index this is a fold of the maximum over the four
groups, which is the bracketed maximum of the specification.
-/

noncomputable section

namespace Cert.ReferenceIdeal.RefMax

open Cert.ReferenceIdeal Cert.ReferenceIdeal.Gen Cert.ReferenceIdeal.Read
open Idealize.ShloMosaic Idealize.ShloMosaic.ValueIdx Cert.GroupMax

/-- The group axis is the one reduced. -/
theorem reduces : S32x4x256x56x56.Reduces [1] S32x256x56x56 := by decide

/-- The reduced index with group k put back is (b, k, j, h, w). -/
theorem lift_eq (i : S32x256x56x56.Idx) (k : Fin (S32x4x256x56x56.size 1)) :
    reduces.lift i k = ix5 (i 0) (⟨k.val, k.isLt⟩ : Fin 4) (i 1) (i 2) (i 3) := by
  funext a; apply Fin.ext
  fin_cases a <;> rfl

/-- The reshape read backwards: (b, k, j, h, w) of the grouped view is (b, k * 256 + j, h, w) of the input. -/
theorem idx_grouped (b : Fin 32) (k : Fin 4) (j : Fin 256) (h w : Fin 56) :
    idx_main_v0 (ix5 b k j h w) = src k b j h w := by
  have hb := b.isLt; have hk := k.isLt; have hj := j.isLt; have hh := h.isLt; have hw := w.isLt
  funext a
  match a with
  | ⟨0, _⟩ => exact Fin.ext (by show ((((b.val * 4 + k.val) * 256 + j.val) * 56 + h.val) * 56 + w.val) / 3211264 = b.val; omega)
  | ⟨1, _⟩ => exact Fin.ext (by show ((((b.val * 4 + k.val) * 256 + j.val) * 56 + h.val) * 56 + w.val) / 3136 % 1024 = k.val * 256 + j.val; omega)
  | ⟨2, _⟩ => exact Fin.ext (by show ((((b.val * 4 + k.val) * 256 + j.val) * 56 + h.val) * 56 + w.val) / 56 % 56 = h.val; omega)
  | ⟨3, _⟩ => exact Fin.ext (by show ((((b.val * 4 + k.val) * 256 + j.val) * 56 + h.val) * 56 + w.val) % 56 = w.val; omega)

/-- The reference's result is the specification's function of the input array. -/
theorem ref_pooled (x : FVec Ideal S32x1024x56x56 .f32) : val_main_v1 (F := Ideal) x = pooled x := by
  funext i
  unfold val_main_v1
  rw [Host.reduce_eq_fold_single (FloatOps.maximumf (F := Ideal) (φ := .f32)) (val_main_v0 (F := Ideal) x) _ _ reduces _ i]
  have hf : (val_main_v0 (F := Ideal) x ∘ reduces.lift i) = fun k : Fin 4 => x (src k (i 0) (i 1) (i 2) (i 3)) :=
    funext fun k => by
      show val_main_v0 (F := Ideal) x (reduces.lift i k) = _
      rw [val_main_v0_apply, lift_eq]
      exact congrArg x (idx_grouped (i 0) ⟨k.val, k.isLt⟩ (i 1) (i 2) (i 3))
  refine Eq.trans ?_ (fold_max_four fun k => x (src k (i 0) (i 1) (i 2) (i 3)))
  exact congrArg (fun f => Finset.fold max (Ideal.ofBits .f32 0xFF800000#32) f (Finset.univ : Finset (Fin 4))) hf

end Cert.ReferenceIdeal.RefMax

end
-- ==== Proof.lean ====
import proofs.«165867_j7370163880483_1_alg».proof.Defs
import proofs.«165867_j7370163880483_1_alg».proof.Proof.Gen.Kernel
import proofs.«165867_j7370163880483_1_alg».proof.Proof.Gen.KernelIdeal
import proofs.«165867_j7370163880483_1_alg».proof.Proof.Gen.ReferenceIdeal
import proofs.«165867_j7370163880483_1_alg».proof.Proof.Gen.Pre_finite_inputs
import proofs.«165867_j7370163880483_1_alg».proof.Proof.Gen.ReferenceIdeal.Run
import proofs.«165867_j7370163880483_1_alg».proof.Proof.Gen.ReferenceIdeal.Read
import proofs.«165867_j7370163880483_1_alg».proof.Proof.BitsRun
import proofs.«165867_j7370163880483_1_alg».proof.Proof.IdealValue
import proofs.«165867_j7370163880483_1_alg».proof.Proof.RefMax

/-!
# A four-way channel-group maximum against a reshape-and-reduce reference

The kernel walks the 32 batches; at batch b it reads the four channel groups of 256 channels
as four blocks of the one input array and writes their elementwise maximum
max (max x₀ x₁) (max x₂ x₃) as block b of the output. The reference reshapes the 1024
channels to 4 × 256 and reduces the group axis with the maximum from minus infinity.

On the extended reals both compute, at output index (b, j, h, w), the least upper bound of the
input at channels j, 256 + j, 512 + j, 768 + j of batch b at (h, w) (Cert.GroupMax.pooled):
the kernel's bracketing and the reference's fold are two ways of writing the same lattice
supremum, so no finiteness of the input is used.

The three programs terminate without fault and leave the input array unchanged: the kernel's
four input windows share the input array, each holding a quarter of its full share, and an
input window never writes; the reference is a straight line of host operations. The kernel's
idealization rewrites nothing, so there is nothing to preserve.
-/

noncomputable section

namespace Cert.Proof

open Idealize.ShloMosaic Idealize.SL.Sem

theorem frame_kernel : Cert.frame_Kernel := fun m ρ _ => Cert.Kernel.Pool.frame m ρ

theorem frame_kernelIdeal : Cert.frame_KernelIdeal := fun m ρ _ => Cert.KernelIdeal.Pool.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the input, both idealized programs end with the output array at the
    specification's function of that input. -/
theorem algebraic : Cert.algebraic_KernelIdeal_ReferenceIdeal := by
  intro m ρ m' ρ' _ hagree
  refine ⟨fun c => Cert.GroupMax.pooled (m ((c.tc : Thread Cert.KernelIdeal.nD Cert.KernelIdeal.τ).loc Cert.KernelIdeal.main_arg0)),
    Cert.KernelIdeal.Pool.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.RefMax.ref_pooled, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
